-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn {F : FTy → Type} [FloatOps F] (main_arg0 : FVec F S4x2048x1024 .f32) (main_arg1 : FVec F S4x2048x1024 .f32) (main_arg2 : IVec S4x2048x2048 32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_c_2 : IVec S_ 32 := constantI S_ 32 0#32
  let main_v9 : IVec S4x2048x2048 32 := broadcastInDim S4x2048x2048 ![] bcast_S_S4x2048x2048 main_c_2
  let main_v10 : IVec S4x2048x2048 1 := cmpi .eq main_arg2 main_v9
  let main_c_3 : IVec S_ 32 := constantI S_ 32 1#32
  let main_v11 : IVec S4x2048x2048 32 := broadcastInDim S4x2048x2048 ![] bcast_S_S4x2048x2048 main_c_3
  let main_v12 : IVec S4x2048x2048 1 := cmpi .eq main_arg2 main_v11
  let main_v13 : IVec S4x2048x2048 1 := ori main_v10 main_v12
  let main_c_4 : IVec S_ 1 := constantI S_ 1 1#1
  let main_v14 : IVec S_ 1 := (fun x v => Host.reduce IntOp.andi x v reducesTo_S4x2048x2048_S_d0_1_2 h_S_) main_v13 main_c_4
  let main_v15 : IVec S_ 1 := andi main_v8 main_v14
  main_v15
-- ==== Kernel.lean ====
abbrev S4x2048x1024 : Shape := ⟨3, ![4, 2048, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S1x256x1 : Shape := ⟨3, ![1, 256, 1]⟩
abbrev S1x1x2048 : Shape := ⟨3, ![1, 1, 2048]⟩
abbrev S1x2048x1024 : Shape := ⟨3, ![1, 2048, 1024]⟩
abbrev S1x256x2048 : Shape := ⟨3, ![1, 256, 2048]⟩
abbrev S1x256x1024 : Shape := ⟨3, ![1, 256, 1024]⟩
abbrev S256x1 : Shape := ⟨2, ![256, 1]⟩
abbrev S1x2048 : Shape := ⟨2, ![1, 2048]⟩
abbrev S256x2048 : Shape := ⟨2, ![256, 2048]⟩
abbrev S2048x1024 : Shape := ⟨2, ![2048, 1024]⟩
abbrev S256 : Shape := ⟨1, ![256]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048, .f32⟩
  | .hbm, ⟨8, _⟩ => ⟨S4x1x2048, .f32⟩
  | .hbm, ⟨9, _⟩ => ⟨S4x2048x1024, .bf16⟩
  | .hbm, ⟨10, _⟩ => ⟨S4x2048x1024, .f32⟩
  | .hbm, ⟨11, _⟩ => ⟨S4x2048x2048, .f32⟩
  | .local _ .vmem, ⟨0, _⟩ => ⟨S1x256x1, .f32⟩
  | .local _ .vmem, ⟨1, _⟩ => ⟨S1x256x1, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x256x2048, .i32⟩
  | .local _ .vmem, ⟨7, _⟩ => ⟨S1x256x2048, .i32⟩
  | .local _ .vmem, ⟨8, _⟩ => ⟨S1x256x1024, .f32⟩
  | .local _ .vmem, ⟨9, _⟩ => ⟨S1x256x1024, .f32⟩
  | .local _ .vmem, ⟨10, _⟩ => ⟨S1x256x2048, .f32⟩
  | .local _ .vmem, ⟨11, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bitsLt_bf16_f32 : FTy.bits .bf16 < FTy.bits .f32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  shapeCasts_S256x2048_S1x256x2048 : S256x2048.ShapeCasts S1x256x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1.size a ≤ S4x2048x1.size a
  hwx0_0 : ∀ i : grid0.Coords, EltTy.bits .f32 = 32 ∨ (Rect.block (s := S4x2048x1) S1x256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x2048.size a
  hwx0_1 : ∀ i : grid0.Coords, EltTy.bits .f32 = 32 ∨ (Rect.block (s := S4x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .bf16 = 32 ∨ (Rect.block (s := S4x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .i32 = 32 ∨ (Rect.block (s := S4x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x2048x1024.size a
  hwx0_4 : ∀ i : grid0.Coords, EltTy.bits .f32 = 32 ∨ (Rect.block (s := S4x2048x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v1) S1x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  bcast_S_S4x2048 : S_.BroadcastsInDim S4x2048 (![] : Fin 0 → Fin S4x2048.rank)
  dot_S4x2048x2048_S4x2048x1024_S4x2048x1024_2_1_1_2_0_0_wf : DotDims.WF S4x2048x2048 S4x2048x1024 S4x2048x1024 [2] [1] [1] [2] [0] [0]

variable [Facts₀]

def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.MaskPre.lean ====
/-
  The assumed domain read back. The precondition's last conjunct says every word of the mask is 0 or 1: it is printed
  as "all of (w = 0 or w = 1)", an and-reduction over every axis of the elementwise disjunction of two equality
  tests against the broadcast constants. From the precondition holding, each mask word is 0 or 1.
-/
import proofs.«418157_j86792699117973_2_alg».proof.Pre_finite_inputs
import Idealize.ShloMosaic.Lib.ReduceAll
import Idealize.ShloMosaic.Lib.ValueIdx
import Idealize.ShloMosaic.Lib.Pipeline.Value

noncomputable section

namespace Cert.MaskedAttn

open Idealize.ShloMosaic Idealize.ShloMosaic.ValueIdx

/-- A rank-0 array has one index. -/
instance : Subsingleton Cert.Pre_finite_inputs.S_.Idx := ⟨fun a b => funext fun d => d.elim0⟩

/-- Under the precondition every mask word is 0 or 1. -/
theorem mask_of_pre {F : FTy → Type} [FloatOps F] [Cert.Pre_finite_inputs.Facts]
    (x0 x1 : FVec F Cert.Pre_finite_inputs.S4x2048x1024 .f32) (w : IVec Cert.Pre_finite_inputs.S4x2048x2048 32)
    (h : Cert.Pre_finite_inputs.fn (F := F) x0 x1 w = fun _ => 1#1) (i : Cert.Pre_finite_inputs.S4x2048x2048.Idx) :
    w i = 0#32 ∨ w i = 1#32 := by
  have h0 := congrFun h ix0
  dsimp only [Cert.Pre_finite_inputs.fn] at h0
  have h1 := (IntOp.andi_eq_one.1 h0).2
  have h2 := Host.reduce_andi_all _ _ _ _ _ h1 i
  rcases IntOp.ori_eq_one.1 h2 with h3 | h3
  · left
    refine (IntOp.cmpi_eq.1 h3).trans ?_
    exact broadcastInDim_apply _ Cert.Pre_finite_inputs.Facts.bcast_S_S4x2048x2048 _ i ix0 fun a => a.elim0
  · right
    refine (IntOp.cmpi_eq.1 h3).trans ?_
    exact broadcastInDim_apply _ Cert.Pre_finite_inputs.Facts.bcast_S_S4x2048x2048 _ i ix0 fun a => a.elim0

end Cert.MaskedAttn

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibSoftmaxRow.lean ====
/-
  A row-wise softmax over an R × C tile read at an index, generic in the sizes, as a kernel's vector dialect spells
  it: the tile minus its row maxima (a maximum multi-reduction over axis 1 from the -∞ word, kept as a column and spread
  back over the columns), exponentiated, divided by the row sums of those exponentials (an add multi-reduction over
  axis 1 kept and spread the same way). At the ideal values the entry at (p, q) depends on row p alone: it is
  exp (S[p,q] - max_k S[p,k]) / ∑_j exp (S[p,j] - max_k S[p,k]), with the maximum the fold of max from -∞ over the row.
  Also here: a 1 × C row spread over R × C read at an index, and a maximum multi-reduction over axis 1 read at a row.
  Imports only the library and the row operations beside it.
-/
import Idealize.ShloMosaic.Lib.ValueIdx
import Idealize.ShloMosaic.Lib.ValueLayout
import Idealize.ShloMosaic.Lib.Pipeline.Value
import Idealize.ShloMosaic.PureOps.Ideal.Laws
import proofs.«418157_j86792699117973_2_alg».proof.Proof.LibRowOps

noncomputable section

open scoped BigOperators

namespace Cert.LibSoftmaxRow

open Idealize.ShloMosaic Idealize.ShloMosaic.ValueIdx

variable {R C : Nat} {α : Type}

/-! ## A row's softmax on the extended reals -/

/-- The f32 word of -∞, the value a maximum reduction starts from. -/
abbrev negInf : EReal := Ideal.ofBits .f32 0xFF800000#32

/-- A row's maximum: the fold of max from -∞ over its entries. -/
def rowMax {n : Nat} (f : Fin n → EReal) : EReal := (Finset.univ : Finset (Fin n)).fold max negInf f

/-- A row's entry shifted by the row's maximum, exponentiated. -/
def rowExp {n : Nat} (f : Fin n → EReal) (k : Fin n) : EReal := Ideal.exp (f k - rowMax f)

/-- A row's softmax: each shifted exponential over their sum (the quotient is the extended reals' division). -/
def softmax {n : Nat} (f : Fin n → EReal) (k : Fin n) : EReal := Ideal.div (rowExp f k) (∑ j : Fin n, rowExp f j)

/-! ## Layout and reduction pieces -/

/-- A 1 × C row broadcast to R × C reads, at (p, q), the row at q. -/
theorem broadcastTo_row (g : (⟨2, ![1, C]⟩ : Shape).Idx → α) (h : (⟨2, ![1, C]⟩ : Shape).Broadcasts ⟨2, ![R, C]⟩)
    (p : Fin R) (q : Fin C) : broadcastTo ⟨2, ![R, C]⟩ g h (ix2 p q) = g (ix2 (0 : Fin 1) q) := by
  refine broadcastTo_apply g h (ix2 p q) (ix2 (0 : Fin 1) q) fun ax => ?_
  match ax with
  | ⟨0, _⟩ => rfl
  | ⟨1, _⟩ =>
    show q.val = if C = 1 then 0 else q.val
    split
    · have := q.isLt; omega
    · rfl

/-- A vector multi-reduction with a maximum body over axis 1, at row p: the fold of max from the accumulator's value
    over the row. -/
theorem multiReduction_max_row {φ : FTy} (v : FVec Ideal ⟨2, ![R, C]⟩ φ) (acc : BitVec φ.bits)
    (h : (⟨2, ![R, C]⟩ : Shape).Reduces [1] ⟨1, ![R]⟩) (hφ : FKind.Formats φ) (hacc : acc = FKind.maximumf.neutral φ hφ)
    (p : Fin R) :
    multiReduction .maximumf [1] ⟨1, ![R]⟩ v acc h hφ hacc (ix1 p)
      = (Finset.univ : Finset (Fin C)).fold max (FloatOps.ofBits φ acc) (fun k => v (ix2 p k)) := by
  have e : (v ∘ h.lift (ix1 p)) = fun k => v (ix2 p k) :=
    funext fun k => congrArg v (Cert.LibRowOps.lift_row h p k)
  rw [Ideal.multiReduction_maximumf_single, e]
  rfl

/-! ## The tile -/

/-- The softmax tile at (p, q) is row p's softmax at q. -/
theorem softmax_tile (S : FVec Ideal ⟨2, ![R, C]⟩ .f32)
    (hr : (⟨2, ![R, C]⟩ : Shape).Reduces [1] ⟨1, ![R]⟩) (hc : (⟨1, ![R]⟩ : Shape).ShapeCasts ⟨2, ![R, 1]⟩)
    (hb : (⟨2, ![R, 1]⟩ : Shape).Broadcasts ⟨2, ![R, C]⟩)
    (hφ : FKind.Formats .f32) (hm : (0xFF800000#32 : BitVec 32) = FKind.maximumf.neutral .f32 hφ)
    (ha : (0x00000000#32 : BitVec 32) = FKind.add.neutral .f32 hφ) (p : Fin R) (q : Fin C) :
    divf (exp (subf S (broadcastTo ⟨2, ![R, C]⟩ (shapeCast ⟨2, ![R, 1]⟩ (multiReduction .maximumf [1] ⟨1, ![R]⟩ S 0xFF800000#32 hr hφ hm) hc) hb)))
        (broadcastTo ⟨2, ![R, C]⟩ (shapeCast ⟨2, ![R, 1]⟩
          (multiReduction .add [1] ⟨1, ![R]⟩
            (exp (subf S (broadcastTo ⟨2, ![R, C]⟩ (shapeCast ⟨2, ![R, 1]⟩ (multiReduction .maximumf [1] ⟨1, ![R]⟩ S 0xFF800000#32 hr hφ hm) hc) hb)))
            0x00000000#32 hr hφ ha) hc) hb) (ix2 p q)
      = softmax (fun k => S (ix2 p k)) q := by
  have hM : ∀ k : Fin C,
      broadcastTo ⟨2, ![R, C]⟩ (shapeCast ⟨2, ![R, 1]⟩ (multiReduction .maximumf [1] ⟨1, ![R]⟩ S 0xFF800000#32 hr hφ hm) hc) hb (ix2 p k)
        = rowMax (fun k => S (ix2 p k)) := by
    intro k
    rw [Cert.LibRowOps.broadcastTo_col, Cert.LibRowOps.shapeCast_col, multiReduction_max_row]
    rfl
  have hE : ∀ k : Fin C,
      exp (subf S (broadcastTo ⟨2, ![R, C]⟩ (shapeCast ⟨2, ![R, 1]⟩ (multiReduction .maximumf [1] ⟨1, ![R]⟩ S 0xFF800000#32 hr hφ hm) hc) hb)) (ix2 p k)
        = rowExp (fun k => S (ix2 p k)) k := by
    intro k
    show Ideal.exp (S (ix2 p k) - broadcastTo ⟨2, ![R, C]⟩ (shapeCast ⟨2, ![R, 1]⟩ (multiReduction .maximumf [1] ⟨1, ![R]⟩ S 0xFF800000#32 hr hφ hm) hc) hb (ix2 p k)) = _
    rw [hM k]
    rfl
  show Ideal.div (exp (subf S (broadcastTo ⟨2, ![R, C]⟩ (shapeCast ⟨2, ![R, 1]⟩ (multiReduction .maximumf [1] ⟨1, ![R]⟩ S 0xFF800000#32 hr hφ hm) hc) hb)) (ix2 p q))
      (broadcastTo ⟨2, ![R, C]⟩ (shapeCast ⟨2, ![R, 1]⟩
          (multiReduction .add [1] ⟨1, ![R]⟩
            (exp (subf S (broadcastTo ⟨2, ![R, C]⟩ (shapeCast ⟨2, ![R, 1]⟩ (multiReduction .maximumf [1] ⟨1, ![R]⟩ S 0xFF800000#32 hr hφ hm) hc) hb)))
            0x00000000#32 hr hφ ha) hc) hb (ix2 p q)) = _
  rw [hE q, Cert.LibRowOps.broadcastTo_col, Cert.LibRowOps.shapeCast_col, Cert.LibRowOps.multiReduction_row]
  unfold softmax
  exact congrArg _ (Finset.sum_congr rfl fun k _ => hE k)

end Cert.LibSoftmaxRow

end
-- ==== Proof.Spec.lean ====
/-
  Masked additive attention over the extended reals: what both programs compute, as functions of the argument arrays.
  For query q and value v of shape [4, 2048, 1024] and a mask w of 32-bit words of shape [4, 2048, 2048]:
    · a row's sum over the feature axis, qs[b,r] = ∑_d q[b,r,d] and ks[b,k] = ∑_d v[b,k,d];
    · the masked score s[b,r,k]: (qs[b,r] + ks[b,k]) · 2⁻⁵ where the mask word is not zero, that minus 10⁹ where it is;
    · the attention weights: row (b,r)'s softmax over k;
    · the context: ctx[b,r,d] = ∑_k attn[b,r,k] · v[b,k,d].
  The second program spells the score as (qs + ks) / √1024 + (1 − float(w)) · (−10⁹). Division by √1024 = 32 is the
  product with 2⁻⁵ on every extended real, and for a mask word that is 0 or 1 the added term is −10⁹ or 0, so the two
  spellings are one value (scoreRef_eq); for any other word they differ, which is why the mask's range is assumed.
  No law used here needs the inputs finite.
-/
import Idealize.ShloMosaic.Lib.ValueIdx
import Idealize.ShloMosaic.PureOps.Ideal.Laws
import proofs.«418157_j86792699117973_2_alg».proof.Proof.LibSoftmaxRow

noncomputable section

open scoped BigOperators

namespace Cert.MaskedAttn

open Idealize.ShloMosaic Idealize.ShloMosaic.ValueIdx Cert.LibSoftmaxRow

/-! ## The literals -/

/-- The scale word is 2⁻⁵ = 1/32. -/
theorem scale_val : Ideal.ofBits .f32 0x3D000000#32 = ((1 / 32 : ℝ) : EReal) := by
  simp [Ideal.ofBits, Ideal.ieee, -EReal.coe_mul]; norm_num

/-- The feature count's word is 1024. -/
theorem dim_val : Ideal.ofBits .f32 0x44800000#32 = ((1024 : ℝ) : EReal) := by
  simp [Ideal.ofBits, Ideal.ieee, -EReal.coe_mul]; norm_num

/-- The word of one. -/
theorem one_val : Ideal.ofBits .f32 0x3F800000#32 = ((1 : ℝ) : EReal) := by
  simp [Ideal.ofBits, Ideal.ieee, -EReal.coe_mul]; norm_num

/-- The two sentinel words are each other's negation: they differ in the sign bit alone. -/
theorem negBig_val : Ideal.ofBits .f32 0xCE6E6B28#32 = -Ideal.ofBits .f32 0x4E6E6B28#32 := by
  simp [Ideal.ofBits, Ideal.ieee, -EReal.coe_mul]

/-- √1024 = 32. -/
theorem sqrt_dim : Ideal.sqrt (Ideal.ofBits .f32 0x44800000#32) = ((32 : ℝ) : EReal) := by
  rw [dim_val, Ideal.sqrt_coe, if_neg (by norm_num)]
  have h : Real.sqrt 1024 = 32 := by
    rw [show (1024 : ℝ) = 32 ^ 2 by norm_num]
    exact Real.sqrt_sq (by norm_num)
  rw [h]

/-! ## The masked score, in both spellings -/

/-- The masked score as the first program spells it: the scaled sum kept where the mask word is not zero, lowered by
    10⁹ where it is. -/
def score (a b : EReal) (w : BitVec 32) : EReal :=
  Scalar.select (IntOp.cmpi .ne w 0#32) ((a + b) * Ideal.ofBits .f32 0x3D000000#32)
    ((a + b) * Ideal.ofBits .f32 0x3D000000#32 - Ideal.ofBits .f32 0x4E6E6B28#32)

/-- The masked score as the second program spells it: the sum over √1024, plus (1 − the mask word as a number) · (−10⁹). -/
def scoreRef (a b : EReal) (w : BitVec 32) : EReal :=
  Ideal.div (a + b) (Ideal.sqrt (Ideal.ofBits .f32 0x44800000#32))
    + (Ideal.ofBits .f32 0x3F800000#32 - ((w.toInt : ℝ) : EReal)) * Ideal.ofBits .f32 0xCE6E6B28#32

/-- Dividing by √1024 is multiplying by the scale word. -/
theorem div_sqrt_dim (x : EReal) :
    Ideal.div x (Ideal.sqrt (Ideal.ofBits .f32 0x44800000#32)) = x * Ideal.ofBits .f32 0x3D000000#32 := by
  rw [sqrt_dim, Ideal.div_coe (by norm_num : (32 : ℝ) ≠ 0), scale_val]

/-- For a mask word that is 0 or 1 the two spellings are one value. -/
theorem scoreRef_eq (a b : EReal) (w : BitVec 32) (hw : w = 0#32 ∨ w = 1#32) : scoreRef a b w = score a b w := by
  unfold scoreRef score
  rw [div_sqrt_dim, one_val, negBig_val]
  rcases hw with rfl | rfl
  · -- the word 0: masked out; 1 − 0 = 1 and the term is −10⁹
    have h0 : IntOp.cmpi .ne (0#32 : BitVec 32) 0#32 = 0#1 := by decide
    have hi : (((0#32 : BitVec 32).toInt : ℝ) : EReal) = 0 := by
      rw [show (0#32 : BitVec 32).toInt = 0 by decide]; simp
    rw [h0, select_zero, hi, sub_zero, EReal.coe_one, one_mul, sub_eq_add_neg]
  · -- the word 1: kept; 1 − 1 = 0 and the term vanishes
    have h1 : IntOp.cmpi .ne (1#32 : BitVec 32) 0#32 = 1#1 := by decide
    have hi : (((1#32 : BitVec 32).toInt : ℝ) : EReal) = ((1 : ℝ) : EReal) := by
      rw [show (1#32 : BitVec 32).toInt = 1 by decide]; simp
    have hz : ((1 : ℝ) : EReal) - ((1 : ℝ) : EReal) = 0 := by
      rw [← EReal.coe_sub, sub_self, EReal.coe_zero]
    rw [h1, select_one, hi, hz, zero_mul, add_zero]

/-! ## The arrays -/

/-- A [4, 2048, 1024] array's sum over its last axis at (b, r). -/
def rowSum (x : (⟨3, ![4, 2048, 1024]⟩ : Shape).Idx → EReal) (b : Fin 4) (r : Fin 2048) : EReal :=
  ∑ d : Fin 1024, x (ix3 b r d)

/-- Row (b, r) of the masked scores, over the key position k. -/
def scores (q v : (⟨3, ![4, 2048, 1024]⟩ : Shape).Idx → EReal) (w : (⟨3, ![4, 2048, 2048]⟩ : Shape).Idx → BitVec 32)
    (b : Fin 4) (r : Fin 2048) : Fin 2048 → EReal :=
  fun k => score (rowSum q b r) (rowSum v b k) (w (ix3 b r k))

/-- The attention weights: each row's softmax. -/
def attn (q v : (⟨3, ![4, 2048, 1024]⟩ : Shape).Idx → EReal) (w : (⟨3, ![4, 2048, 2048]⟩ : Shape).Idx → BitVec 32) :
    (⟨3, ![4, 2048, 2048]⟩ : Shape).Idx → EReal :=
  fun i => softmax (scores q v w (i 0) (i 1)) (i 2)

/-- The context: the weights' product with the values, batch by batch. -/
def ctx (q v : (⟨3, ![4, 2048, 1024]⟩ : Shape).Idx → EReal) (w : (⟨3, ![4, 2048, 2048]⟩ : Shape).Idx → BitVec 32) :
    (⟨3, ![4, 2048, 1024]⟩ : Shape).Idx → EReal :=
  fun i => ∑ k : Fin 2048, attn q v w (ix3 (i 0) (i 1) k) * v (ix3 (i 0) k (i 2))

theorem attn_ix3 (q v : (⟨3, ![4, 2048, 1024]⟩ : Shape).Idx → EReal) (w : (⟨3, ![4, 2048, 2048]⟩ : Shape).Idx → BitVec 32)
    (b : Fin 4) (r k : Fin 2048) : attn q v w (ix3 b r k) = softmax (scores q v w b r) k := rfl

theorem ctx_ix3 (q v : (⟨3, ![4, 2048, 1024]⟩ : Shape).Idx → EReal) (w : (⟨3, ![4, 2048, 2048]⟩ : Shape).Idx → BitVec 32)
    (b : Fin 4) (r : Fin 2048) (d : Fin 1024) :
    ctx q v w (ix3 b r d) = ∑ k : Fin 2048, softmax (scores q v w b r) k * v (ix3 b k d) := rfl

end Cert.MaskedAttn

end
-- ==== Proof.RefRead.lean ====
/-
  The second program, operation by operation, is the specification. At (b, r, k) its score is the sum of the two row
  sums over √1024 plus (1 − the mask word as a number) · (−10⁹); its row maximum is the maximum-reduction over k from
  −∞ (taken once more against −∞, which changes nothing); its weights are the shifted exponentials over their row sum;
  its context is the batched product of the weights with the values. For a mask of words 0 and 1 the score is the
  specification's masked score, so the two results are the specification's attention weights and context.
-/
import proofs.«418157_j86792699117973_2_alg».proof.Proof.Gen.ReferenceIdeal.Read
import proofs.«418157_j86792699117973_2_alg».proof.Proof.Spec

noncomputable section

open scoped BigOperators

namespace Cert.MaskedAttn

open Idealize.ShloMosaic Idealize.ShloMosaic.ValueIdx Cert.ReferenceIdeal Cert.ReferenceIdeal.Gen Cert.ReferenceIdeal.Read
open Cert.LibSoftmaxRow

variable (x0 x1 : (⟨S4x2048x1024, .f32⟩ : BufTy).Contents (Elt Ideal)) (x2 : (⟨S4x2048x2048, .i32⟩ : BufTy).Contents (Elt Ideal))

/-- −∞'s word is the least extended real. -/
theorem negInf_eq_bot : negInf = ⊥ := by simp [negInf, Ideal.ofBits, Ideal.ieee]

/-- The score at (b, r, k), in the second program's spelling. -/
theorem ref_score (b : Fin 4) (r k : Fin 2048) :
    val_main_v15 (F := Ideal) x0 x1 x2 (ix3 b r k) = scoreRef (rowSum x0 b r) (rowSum x1 b k) (x2 (ix3 b r k)) := by
  have eq : ∀ d : Fin 1024, idx_main_v0 (idx_main_v2 (idx_main_v4 (ix3 b r k))) d = ix3 b r d := fun d =>
    funext fun a => Fin.ext (by match a with | ⟨0, _⟩ => rfl | ⟨1, _⟩ => rfl | ⟨2, _⟩ => rfl)
  have ek : ∀ d : Fin 1024, idx_main_v1 (idx_main_v3 (idx_main_v5 (ix3 b r k))) d = ix3 b k d := fun d =>
    funext fun a => Fin.ext (by match a with | ⟨0, _⟩ => rfl | ⟨1, _⟩ => rfl | ⟨2, _⟩ => rfl)
  rw [val_main_v15_apply, val_main_v9_apply, val_main_v6_apply, val_main_v4_apply, val_main_v2_apply, val_main_v0_apply,
    val_main_v5_apply, val_main_v3_apply, val_main_v1_apply, val_main_v8_apply, val_main_v7_apply, val_main_cst_1_apply,
    val_main_v14_apply, val_main_v12_apply, val_main_v11_apply, val_main_cst_2_apply, val_main_v10_apply, val_main_v13_apply,
    val_main_cst_3_apply, val_main_cst_apply, val_main_cst_0_apply]
  simp only [eq, ek]
  show Ideal.div ((Ideal.ofBits .f32 0x00000000#32 + ∑ d : Fin 1024, x0 (ix3 b r d))
        + (Ideal.ofBits .f32 0x00000000#32 + ∑ d : Fin 1024, x1 (ix3 b k d))) (Ideal.sqrt (Ideal.ofBits .f32 0x44800000#32))
      + (Ideal.ofBits .f32 0x3F800000#32 - (((x2 (ix3 b r k)).toInt : ℝ) : EReal)) * Ideal.ofBits .f32 0xCE6E6B28#32 = _
  rw [Ideal.ofBits_zero_f32, zero_add, zero_add]
  rfl

/-- The row maximum at (b, r): the fold of max from −∞ over the row's scores. -/
theorem ref_rowMax (b : Fin 4) (r : Fin 2048) :
    val_main_v18 (F := Ideal) x0 x1 x2 (ix2 b r) = rowMax (fun k => val_main_v15 (F := Ideal) x0 x1 x2 (ix3 b r k)) := by
  have el : ((val_main_v15 (F := Ideal) x0 x1 x2) ∘ (by decide : S4x2048x2048.Reduces [2] S4x2048).lift (ix2 b r))
      = fun k => val_main_v15 (F := Ideal) x0 x1 x2 (ix3 b r k) :=
    funext fun k => congrArg (val_main_v15 (F := Ideal) x0 x1 x2)
      (funext fun a => Fin.ext (by match a with | ⟨0, _⟩ => rfl | ⟨1, _⟩ => rfl | ⟨2, _⟩ => rfl))
  rw [val_main_v18_apply, val_main_v17_apply, val_main_cst_5_apply]
  unfold val_main_v16
  rw [Host.reduce_eq_fold_single FloatOps.maximumf _ _ reducesTo_S4x2048x2048_S4x2048_d2 (by decide) h_S_ (ix2 b r), el]
  show max negInf (Finset.fold max negInf (fun k => val_main_v15 (F := Ideal) x0 x1 x2 (ix3 b r k)) Finset.univ) = _
  rw [negInf_eq_bot]
  exact max_eq_right bot_le

/-- The shifted exponential at (b, r, k). -/
theorem ref_rowExp (b : Fin 4) (r k : Fin 2048) :
    val_main_v22 (F := Ideal) x0 x1 x2 (ix3 b r k) = rowExp (fun k => val_main_v15 (F := Ideal) x0 x1 x2 (ix3 b r k)) k := by
  have ei : idx_main_v19 (idx_main_v20 (ix3 b r k)) = ix2 b r :=
    funext fun a => Fin.ext (by match a with | ⟨0, _⟩ => rfl | ⟨1, _⟩ => rfl)
  rw [val_main_v22_apply, val_main_v21_apply, val_main_v20_apply, val_main_v19_apply, ei, ref_rowMax]
  rfl

/-- The weights at (b, r, k): the row's softmax. -/
theorem ref_softmax (b : Fin 4) (r k : Fin 2048) :
    val_main_v26 (F := Ideal) x0 x1 x2 (ix3 b r k) = softmax (fun k => val_main_v15 (F := Ideal) x0 x1 x2 (ix3 b r k)) k := by
  have ej : ∀ j : Fin 2048, idx_main_v23 (idx_main_v24 (idx_main_v25 (ix3 b r k))) j = ix3 b r j := fun j =>
    funext fun a => Fin.ext (by match a with | ⟨0, _⟩ => rfl | ⟨1, _⟩ => rfl | ⟨2, _⟩ => rfl)
  rw [val_main_v26_apply, val_main_v25_apply, val_main_v24_apply, val_main_v23_apply, val_main_cst_6_apply, ref_rowExp]
  simp only [ej, ref_rowExp]
  show Ideal.div _ (Ideal.ofBits .f32 0x00000000#32 + _) = _
  rw [Ideal.ofBits_zero_f32, zero_add]
  rfl

/-- For a mask of words 0 and 1, the second program's weights are the specification's. -/
theorem ref_attn (hw : ∀ i, x2 i = 0#32 ∨ x2 i = 1#32) : val_main_v26 (F := Ideal) x0 x1 x2 = attn x0 x1 x2 := by
  funext i
  obtain ⟨b, r, k, rfl⟩ : ∃ (b : Fin 4) (r k : Fin 2048), i = ix3 b r k := ⟨i 0, i 1, i 2, eq_ix3 i⟩
  rw [ref_softmax, attn_ix3]
  exact congrArg (fun f => softmax f k) (funext fun j => by
    rw [ref_score]; exact scoreRef_eq _ _ _ (hw _))

/-- … and its context is the specification's. -/
theorem ref_ctx (hw : ∀ i, x2 i = 0#32 ∨ x2 i = 1#32) : val_main_v27 (F := Ideal) x0 x1 x2 = ctx x0 x1 x2 := by
  funext i
  obtain ⟨b, r, d, rfl⟩ : ∃ (b : Fin 4) (r : Fin 2048) (d : Fin 1024), i = ix3 b r d := ⟨i 0, i 1, i 2, eq_ix3 i⟩
  have el : ∀ k : Fin 2048, lidx_main_v27 (ix3 b r d) k = ix3 b r k := fun k =>
    funext fun a => Fin.ext (by match a with | ⟨0, _⟩ => rfl | ⟨1, _⟩ => rfl | ⟨2, _⟩ => rfl)
  have er : ∀ k : Fin 2048, ridx_main_v27 (ix3 b r d) k = ix3 b k d := fun k =>
    funext fun a => Fin.ext (by match a with | ⟨0, _⟩ => rfl | ⟨1, _⟩ => rfl | ⟨2, _⟩ => rfl)
  rw [val_main_v27_apply, ref_attn x0 x1 x2 hw]
  simp only [el, er]
  rfl

end Cert.MaskedAttn

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.KernelTile.lean ====
/-
  One grid point's arithmetic at the ideal values. From the point's blocks — a [1,256,1] column of query row sums, a
  [1,1,2048] row of value row sums, a [1,256,2048] block of mask words and a [1,2048,1024] block of values — the body
  forms the 256 × 2048 tile of masked scores (column entry plus row entry, scaled, lowered by 10⁹ where the mask word is
  zero), takes each row's softmax, stores that tile, and multiplies it into the value block. So the attention tile at
  (p, q) is row p's softmax at q, and the product at (p, d) is ∑_k softmax(row p)[k] · value[k, d]; the change of float
  format before the product is the identity here.
-/
import proofs.«418157_j86792699117973_2_alg».proof.Proof.Gen.KernelIdeal.Skeleton
import Idealize.ShloMosaic.Lib.ValueLayout
import proofs.«418157_j86792699117973_2_alg».proof.Proof.Spec
import proofs.«418157_j86792699117973_2_alg».proof.Proof.LibPlainDot

noncomputable section

open scoped BigOperators

namespace Cert.MaskedAttn

open Idealize.ShloMosaic Idealize.ShloMosaic.ValueIdx Cert.KernelIdeal Cert.KernelIdeal.Gen Cert.LibSoftmaxRow

/-- Row p of a point's masked scores, over the key position k, from the point's blocks. -/
def tileRow (v0 : Vec Ideal S1x256x1 .f32) (v2 : Vec Ideal S1x1x2048 .f32) (v4 : Vec Ideal S1x256x2048 .i32) (p : Fin 256) :
    Fin 2048 → EReal :=
  fun k => score (v0 (ix3 (0 : Fin 1) p (0 : Fin 1))) (v2 (ix3 (0 : Fin 1) (0 : Fin 1) k)) (v4 (ix3 (0 : Fin 1) p k))

/-- The masked-score tile at (p, k). -/
theorem scoreTile_apply (v0 : Vec Ideal S1x256x1 .f32) (v2 : Vec Ideal S1x1x2048 .f32) (v4 : Vec Ideal S1x256x2048 .i32)
    (p : Fin 256) (k : Fin 2048) :
    select (cmpi .ne (shapeCast S256x2048 v4 shapeCasts_S1x256x2048_S256x2048) (broadcast S256x2048 0#32))
      (mulf (addf (broadcastTo S256x2048 (shapeCast S256x1 v0 shapeCasts_S1x256x1_S256x1) broadcasts_S256x1_S256x2048)
              (broadcastTo S256x2048 (shapeCast S1x2048 v2 shapeCasts_S1x1x2048_S1x2048) broadcasts_S1x2048_S256x2048))
            (broadcast S256x2048 (Scalar.ofBits (F := Ideal) .f32 0x3D000000#32)))
      (subf (mulf (addf (broadcastTo S256x2048 (shapeCast S256x1 v0 shapeCasts_S1x256x1_S256x1) broadcasts_S256x1_S256x2048)
                    (broadcastTo S256x2048 (shapeCast S1x2048 v2 shapeCasts_S1x1x2048_S1x2048) broadcasts_S1x2048_S256x2048))
                  (broadcast S256x2048 (Scalar.ofBits (F := Ideal) .f32 0x3D000000#32)))
            (broadcast S256x2048 (Scalar.ofBits (F := Ideal) .f32 0x4E6E6B28#32))) (ix2 p k)
      = tileRow v0 v2 v4 p k := by
  have e0 : broadcastTo S256x2048 (shapeCast S256x1 v0 shapeCasts_S1x256x1_S256x1) broadcasts_S256x1_S256x2048 (ix2 p k)
      = v0 (ix3 (0 : Fin 1) p (0 : Fin 1)) := by
    rw [Cert.LibRowOps.broadcastTo_col, shapeCast_1ab_ab_apply]
  have e2 : broadcastTo S256x2048 (shapeCast S1x2048 v2 shapeCasts_S1x1x2048_S1x2048) broadcasts_S1x2048_S256x2048 (ix2 p k)
      = v2 (ix3 (0 : Fin 1) (0 : Fin 1) k) := by
    rw [Cert.LibSoftmaxRow.broadcastTo_row, shapeCast_1ab_ab_apply]
  have e4 : shapeCast S256x2048 v4 shapeCasts_S1x256x2048_S256x2048 (ix2 p k) = v4 (ix3 (0 : Fin 1) p k) :=
    shapeCast_1ab_ab_apply v4 _ p k
  show Scalar.select (IntOp.cmpi .ne (shapeCast S256x2048 v4 shapeCasts_S1x256x2048_S256x2048 (ix2 p k)) 0#32)
      ((broadcastTo S256x2048 (shapeCast S256x1 v0 shapeCasts_S1x256x1_S256x1) broadcasts_S256x1_S256x2048 (ix2 p k)
          + broadcastTo S256x2048 (shapeCast S1x2048 v2 shapeCasts_S1x1x2048_S1x2048) broadcasts_S1x2048_S256x2048 (ix2 p k))
        * Ideal.ofBits .f32 0x3D000000#32)
      ((broadcastTo S256x2048 (shapeCast S256x1 v0 shapeCasts_S1x256x1_S256x1) broadcasts_S256x1_S256x2048 (ix2 p k)
          + broadcastTo S256x2048 (shapeCast S1x2048 v2 shapeCasts_S1x1x2048_S1x2048) broadcasts_S1x2048_S256x2048 (ix2 p k))
        * Ideal.ofBits .f32 0x3D000000#32 - Ideal.ofBits .f32 0x4E6E6B28#32) = _
  rw [e0, e2, e4]
  rfl

/-- The attention tile at (p, q): row p's softmax at q. -/
theorem attnTile_apply (v0 : Vec Ideal S1x256x1 .f32) (v2 : Vec Ideal S1x1x2048 .f32) (v4 : Vec Ideal S1x256x2048 .i32)
    (p : Fin 256) (q : Fin 2048) :
    k0_pay2 (F := Ideal) v0 v2 v4 (ix2 p q) = softmax (tileRow v0 v2 v4 p) q := by
  unfold k0_pay2
  dsimp only
  refine (softmax_tile (R := 256) (C := 2048) _ reduces_S256x2048_S256 shapeCasts_S256_S256x1 broadcasts_S256x1_S256x2048
    (.inl rfl) rfl rfl p q).trans ?_
  exact congrArg (fun f => softmax f q) (funext fun k => scoreTile_apply v0 v2 v4 p k)

/-- The stored attention block at (0, p, q). -/
theorem attnBlock_apply (v0 : Vec Ideal S1x256x1 .f32) (v2 : Vec Ideal S1x1x2048 .f32) (v4 : Vec Ideal S1x256x2048 .i32)
    (u : Fin 1) (p : Fin 256) (q : Fin 2048) :
    k0_pay3 (F := Ideal) v0 v2 v4 (ix3 u p q) = softmax (tileRow v0 v2 v4 p) q := by
  unfold k0_pay3
  rw [shapeCast_ab_1ab_apply]
  exact attnTile_apply v0 v2 v4 p q

/-- The product tile at (p, d): the row's softmax against the value block's column d. -/
theorem ctxTile_apply (v0 : Vec Ideal S1x256x1 .f32) (v2 : Vec Ideal S1x1x2048 .f32) (v4 : Vec Ideal S1x256x2048 .i32)
    (v6 : Vec Ideal S1x2048x1024 .bf16) (p : Fin 256) (d : Fin 1024) :
    k0_pay4 (F := Ideal) v0 v2 v4 v6 (ix2 p d)
      = ∑ k : Fin 2048, softmax (tileRow v0 v2 v4 p) k * v6 (ix3 (0 : Fin 1) k d) := by
  unfold k0_pay4
  show FloatOps.matmul dot_S256x2048_S2048x1024_S256x1024_1_0_0_1_n_n none
      (fun i => k0_pay2 (F := Ideal) v0 v2 v4 i) (shapeCast S2048x1024 v6 shapeCasts_S1x2048x1024_S2048x1024)
      (constant S256x1024 .f32 0x00000000#32) (ix2 p d) = _
  rw [Cert.LibPlainDot.matmul_zero_eq_matProd (M := 256) (K := 2048) (N := 1024) _ rfl rfl rfl rfl rfl rfl,
    Cert.LibPlainDot.matProd_ix2]
  refine Finset.sum_congr rfl fun k _ => ?_
  rw [attnTile_apply, shapeCast_1ab_ab_apply]

end Cert.MaskedAttn

end
-- ==== Proof.KernelBlocks.lean ====
/-
  From one grid point's blocks to the whole arrays. The grid is 4 batches × 8 row tiles; point (b, i) reads the query
  row sums of rows 256·i … 256·i + 255 of batch b (a column the host computed), batch b's value row sums (a row the host
  computed), batch b's values (the host's copy in another float format, the same numbers here) and the mask's block of
  those rows, and writes the same rows of the context and of the attention weights. What the point writes is the
  specification's arrays read through its block (the point's tile arithmetic, with each block entry identified in its
  array); the 32 blocks tile each output array, so after the run each output array is the specification's.
-/
import proofs.«418157_j86792699117973_2_alg».proof.Proof.Gen.KernelIdeal.Value
import Idealize.ShloMosaic.Lib.StableHlo.Run
import proofs.«418157_j86792699117973_2_alg».proof.Proof.KernelTile

set_option maxRecDepth 16384

noncomputable section

open scoped BigOperators

namespace Cert.MaskedAttn

open Idealize.ShloMosaic Idealize.ShloMosaic.ValueIdx Idealize.ShloMosaic.TcCoe Idealize.SL.Sem
open Cert.KernelIdeal Cert.KernelIdeal.Gen Cert.LibSoftmaxRow
open Idealize.ShloMosaic.Pipeline (Dat)

variable (m : (ℓ : Loc nD τ sig) → Buf (Elt Ideal) ℓ) (ρ : Dev nD → PrngReg)

/-! ## The argument arrays, by their literal types -/

abbrev qArr (c : Dev nD) : S4x2048x1024.Idx → EReal := m ((c : Thread nD τ).loc main_arg0)
abbrev vArr (c : Dev nD) : S4x2048x1024.Idx → EReal := m ((c : Thread nD τ).loc main_arg1)
abbrev wArr (c : Dev nD) : S4x2048x2048.Idx → BitVec 32 := m ((c : Thread nD τ).loc main_arg2)

/-- Row p of row tile i. -/
abbrev rowAt (i : Fin 8) (p : Fin 256) : Fin 2048 := ⟨256 * i.val + p.val, by have := i.isLt; have := p.isLt; omega⟩

theorem hz3 : (![0, 0, 0] : Fin 3 → Nat) = fun _ => 0 := funext fun a => by fin_cases a <;> rfl

/-! ## What the host leaves in the window arrays -/

/-- The host's sum over the feature axis from the zero word, at (a, b). -/
theorem hostRowSum (x : FVec Ideal S4x2048x1024 .f32) (a : Fin 4) (b : Fin 2048) :
    Host.reduceAdd x (constant (F := Ideal) S_ .f32 0x00000000#32) reducesTo_S4x2048x1024_S4x2048_d2 h_S_ (ix2 a b)
      = rowSum x a b := by
  simp only [Host.reduceAdd, Ideal.hostReduceAdd_def]
  rw [Ideal.hostReduceAdd_single reducesTo_S4x2048x1024_S4x2048_d2 (by decide)]
  show Ideal.ofBits .f32 0x00000000#32 + _ = _
  rw [Ideal.ofBits_zero_f32, zero_add]
  unfold rowSum
  refine Finset.sum_congr rfl fun k _ => ?_
  exact congrArg x (funext fun a => Fin.ext (by match a with | ⟨0, _⟩ => rfl | ⟨1, _⟩ => rfl | ⟨2, _⟩ => rfl))

/-- The column of query row sums at (b, r, 0). -/
theorem V_qsum (c : Dev nD) (b : Fin 4) (r : Fin 2048) (z : Fin 1) :
    (V m c main_v1 : S4x2048x1.Idx → EReal) (ix3 b r z) = rowSum (qArr m c) b r := by
  have e : (V m c main_v1 : S4x2048x1.Idx → EReal)
      = broadcastInDim S4x2048x1 ![0, 1] bcast_S4x2048_S4x2048x1_0_1
          (Host.reduceAdd (qArr m c) (constant (F := Ideal) S_ .f32 0x00000000#32) reducesTo_S4x2048x1024_S4x2048_d2 h_S_) := by
    dsimp only [V, hostOps0]; after_results
  rw [e, broadcastInDim_apply _ bcast_S4x2048_S4x2048x1_0_1 _ (ix3 b r z) (ix2 b r) (fun a => match a with
    | ⟨0, _⟩ => by show b.val = if (4 : Nat) = 1 then 0 else b.val; rw [if_neg (by decide)]
    | ⟨1, _⟩ => by show r.val = if (2048 : Nat) = 1 then 0 else r.val; rw [if_neg (by decide)])]
  exact hostRowSum _ b r

/-- The row of value row sums at (b, 0, k). -/
theorem V_ksum (c : Dev nD) (b : Fin 4) (z : Fin 1) (k : Fin 2048) :
    (V m c main_v3 : S4x1x2048.Idx → EReal) (ix3 b z k) = rowSum (vArr m c) b k := by
  have e : (V m c main_v3 : S4x1x2048.Idx → EReal)
      = broadcastInDim S4x1x2048 ![0, 2] bcast_S4x2048_S4x1x2048_0_2
          (Host.reduceAdd (vArr m c) (constant (F := Ideal) S_ .f32 0x00000000#32) reducesTo_S4x2048x1024_S4x2048_d2 h_S_) := by
    dsimp only [V, hostOps0]; after_results
  rw [e, broadcastInDim_apply _ bcast_S4x2048_S4x1x2048_0_2 _ (ix3 b z k) (ix2 b k) (fun a => match a with
    | ⟨0, _⟩ => by show b.val = if (4 : Nat) = 1 then 0 else b.val; rw [if_neg (by decide)]
    | ⟨1, _⟩ => by show k.val = if (2048 : Nat) = 1 then 0 else k.val; rw [if_neg (by decide)])]
  exact hostRowSum _ b k

/-- The values in the other float format are the values. -/
theorem V_vals (c : Dev nD) : (V m c main_v4 : S4x2048x1024.Idx → EReal) = vArr m c := by
  dsimp only [V, hostOps0]; after_results <;> rfl

/-! ## One point's blocks against the arrays -/

/-- A point's row of masked scores is the array's row, when the point's blocks are the arrays' entries. -/
theorem tileRow_eq (q v : S4x2048x1024.Idx → EReal) (w : S4x2048x2048.Idx → BitVec 32)
    (x0 : Vec Ideal S1x256x1 .f32) (x1 : Vec Ideal S1x1x2048 .f32) (x3 : Vec Ideal S1x256x2048 .i32) (b : Fin 4) (i : Fin 8)
    (h0 : ∀ p : Fin 256, x0 (ix3 (0 : Fin 1) p (0 : Fin 1)) = rowSum q b (rowAt i p))
    (h1 : ∀ k : Fin 2048, x1 (ix3 (0 : Fin 1) (0 : Fin 1) k) = rowSum v b k)
    (h3 : ∀ (p : Fin 256) (k : Fin 2048), x3 (ix3 (0 : Fin 1) p k) = w (ix3 b (rowAt i p) k)) (p : Fin 256) :
    tileRow x0 x1 x3 p = scores q v w b (rowAt i p) := by
  funext k
  unfold tileRow scores
  rw [h0, h1, h3]

/-- The attention block a point stores is the attention array on the point's rows. -/
theorem attnBlock_eq (q v : S4x2048x1024.Idx → EReal) (w : S4x2048x2048.Idx → BitVec 32)
    (x0 : Vec Ideal S1x256x1 .f32) (x1 : Vec Ideal S1x1x2048 .f32) (x3 : Vec Ideal S1x256x2048 .i32) (b : Fin 4) (i : Fin 8)
    (h0 : ∀ p : Fin 256, x0 (ix3 (0 : Fin 1) p (0 : Fin 1)) = rowSum q b (rowAt i p))
    (h1 : ∀ k : Fin 2048, x1 (ix3 (0 : Fin 1) (0 : Fin 1) k) = rowSum v b k)
    (h3 : ∀ (p : Fin 256) (k : Fin 2048), x3 (ix3 (0 : Fin 1) p k) = w (ix3 b (rowAt i p) k)) (y : S1x256x2048.Idx) :
    k0_pay3 (F := Ideal) x0 x1 x3 y = attn q v w (ix3 b (rowAt i (y 1)) (y 2)) := by
  obtain ⟨u, p, k, rfl⟩ : ∃ (u : Fin 1) (p : Fin 256) (k : Fin 2048), y = ix3 u p k := ⟨y 0, y 1, y 2, eq_ix3 y⟩
  show k0_pay3 (F := Ideal) x0 x1 x3 (ix3 u p k) = attn q v w (ix3 b (rowAt i p) k)
  rw [attnBlock_apply, attn_ix3, tileRow_eq q v w x0 x1 x3 b i h0 h1 h3]

/-- The context block a point stores is the context array on the point's rows. -/
theorem ctxBlock_eq (q v : S4x2048x1024.Idx → EReal) (w : S4x2048x2048.Idx → BitVec 32)
    (x0 : Vec Ideal S1x256x1 .f32) (x1 : Vec Ideal S1x1x2048 .f32) (x2 : Vec Ideal S1x2048x1024 .bf16) (x3 : Vec Ideal S1x256x2048 .i32)
    (b : Fin 4) (i : Fin 8)
    (h0 : ∀ p : Fin 256, x0 (ix3 (0 : Fin 1) p (0 : Fin 1)) = rowSum q b (rowAt i p))
    (h1 : ∀ k : Fin 2048, x1 (ix3 (0 : Fin 1) (0 : Fin 1) k) = rowSum v b k)
    (h2 : ∀ (k : Fin 2048) (d : Fin 1024), x2 (ix3 (0 : Fin 1) k d) = v (ix3 b k d))
    (h3 : ∀ (p : Fin 256) (k : Fin 2048), x3 (ix3 (0 : Fin 1) p k) = w (ix3 b (rowAt i p) k)) (y : S1x256x1024.Idx) :
    k0_pay1 (F := Ideal) (k0_pay4 x0 x1 x3 x2) y = ctx q v w (ix3 b (rowAt i (y 1)) (y 2)) := by
  obtain ⟨u, p, d, rfl⟩ : ∃ (u : Fin 1) (p : Fin 256) (d : Fin 1024), y = ix3 u p d := ⟨y 0, y 1, y 2, eq_ix3 y⟩
  show k0_pay1 (F := Ideal) (k0_pay4 x0 x1 x3 x2) (ix3 u p d) = ctx q v w (ix3 b (rowAt i p) d)
  unfold k0_pay1
  rw [shapeCast_ab_1ab_apply, ctxTile_apply, ctx_ix3, tileRow_eq q v w x0 x1 x3 b i h0 h1 h3]
  exact Finset.sum_congr rfl fun k _ => by rw [h2]

/-! ## The index maps, decided over the 32 points -/

/-- Each window's block index at a point, against the output windows': the batch and the row tile move together, the
    other coordinates stay 0, and both are in range. -/
theorem idx_facts : ∀ t : Fin cfg0.N,
    win0_5.index t (0 : Fin 3) < 4 ∧ win0_5.index t (1 : Fin 3) < 8 ∧ win0_5.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0 :=
  (by decide +kernel : ∀ t : Fin grid0.N, _)

/-- Every (batch, row tile) pair is some point's. -/
theorem idx_onto : ∀ (b : Fin 4) (i : Fin 8), ∃ t : Fin cfg0.N,
    win0_5.index t (0 : Fin 3) = b.val ∧ win0_5.index t (1 : Fin 3) = i.val :=
  (by decide +kernel : ∀ (b : Fin 4) (i : Fin 8), ∃ t : Fin grid0.N,
    win0_5.index t (0 : Fin 3) = b.val ∧ win0_5.index t (1 : Fin 3) = i.val)

/-- A point's batch and row tile. -/
def batchOf (t : Fin cfg0.N) : Fin 4 := ⟨win0_5.index t (0 : Fin 3), (idx_facts t).1⟩
def tileOf (t : Fin cfg0.N) : Fin 8 := ⟨win0_5.index t (1 : Fin 3), (idx_facts t).2.1⟩

/-! ## The input blocks at a point -/

theorem blk0_at (c : Dev nD) (t : Fin cfg0.N) (p : Fin 256) :
    iblk m c 0 t (ix3 (0 : Fin 1) p (0 : Fin 1)) = rowSum (qArr m c) (batchOf t) (rowAt (tileOf t) p) := by
  obtain ⟨f0, f1, f2, f3, f4, f5, f6, f7, f8, f9, f10, f11, f12, f13, f14, f15, f16, f17⟩ := idx_facts t
  show (V m c main_v1 : S4x2048x1.Idx → EReal) (((cfg0.win 0).blk t).view.emb (ix3 (0 : Fin 1) p (0 : Fin 1))) = _
  have hi : ((cfg0.win 0).blk t).view.emb (ix3 (0 : Fin 1) p (0 : Fin 1)) = ix3 (batchOf t) (rowAt (tileOf t) p) (0 : Fin 1) := by
    funext a; apply Fin.ext
    match a with
    | ⟨0, _⟩ => show win0_0.index t (0 : Fin 3) * 1 + 1 * 0 = win0_5.index t (0 : Fin 3); omega
    | ⟨1, _⟩ => show win0_0.index t (1 : Fin 3) * 256 + 1 * p.val = 256 * win0_5.index t (1 : Fin 3) + p.val; omega
    | ⟨2, _⟩ => show win0_0.index t (2 : Fin 3) * 1 + 1 * 0 = 0; omega
  rw [hi]
  exact V_qsum m c _ _ _

theorem blk1_at (c : Dev nD) (t : Fin cfg0.N) (k : Fin 2048) :
    iblk m c 1 t (ix3 (0 : Fin 1) (0 : Fin 1) k) = rowSum (vArr m c) (batchOf t) k := by
  obtain ⟨f0, f1, f2, f3, f4, f5, f6, f7, f8, f9, f10, f11, f12, f13, f14, f15, f16, f17⟩ := idx_facts t
  show (V m c main_v3 : S4x1x2048.Idx → EReal) (((cfg0.win 1).blk t).view.emb (ix3 (0 : Fin 1) (0 : Fin 1) k)) = _
  have hi : ((cfg0.win 1).blk t).view.emb (ix3 (0 : Fin 1) (0 : Fin 1) k) = ix3 (batchOf t) (0 : Fin 1) k := by
    funext a; apply Fin.ext
    match a with
    | ⟨0, _⟩ => show win0_1.index t (0 : Fin 3) * 1 + 1 * 0 = win0_5.index t (0 : Fin 3); omega
    | ⟨1, _⟩ => show win0_1.index t (1 : Fin 3) * 1 + 1 * 0 = 0; omega
    | ⟨2, _⟩ => show win0_1.index t (2 : Fin 3) * 2048 + 1 * k.val = k.val; omega
  rw [hi]
  exact V_ksum m c _ _ _

theorem blk2_at (c : Dev nD) (t : Fin cfg0.N) (k : Fin 2048) (d : Fin 1024) :
    iblk m c 2 t (ix3 (0 : Fin 1) k d) = vArr m c (ix3 (batchOf t) k d) := by
  obtain ⟨f0, f1, f2, f3, f4, f5, f6, f7, f8, f9, f10, f11, f12, f13, f14, f15, f16, f17⟩ := idx_facts t
  show (V m c main_v4 : S4x2048x1024.Idx → EReal) (((cfg0.win 2).blk t).view.emb (ix3 (0 : Fin 1) k d)) = _
  have hi : ((cfg0.win 2).blk t).view.emb (ix3 (0 : Fin 1) k d) = ix3 (batchOf t) k d := by
    funext a; apply Fin.ext
    match a with
    | ⟨0, _⟩ => show win0_2.index t (0 : Fin 3) * 1 + 1 * 0 = win0_5.index t (0 : Fin 3); omega
    | ⟨1, _⟩ => show win0_2.index t (1 : Fin 3) * 2048 + 1 * k.val = k.val; omega
    | ⟨2, _⟩ => show win0_2.index t (2 : Fin 3) * 1024 + 1 * d.val = d.val; omega
  rw [hi, V_vals]

theorem blk3_at (c : Dev nD) (t : Fin cfg0.N) (p : Fin 256) (k : Fin 2048) :
    iblk m c 3 t (ix3 (0 : Fin 1) p k) = wArr m c (ix3 (batchOf t) (rowAt (tileOf t) p) k) := by
  obtain ⟨f0, f1, f2, f3, f4, f5, f6, f7, f8, f9, f10, f11, f12, f13, f14, f15, f16, f17⟩ := idx_facts t
  show (V m c main_arg2 : S4x2048x2048.Idx → BitVec 32) (((cfg0.win 3).blk t).view.emb (ix3 (0 : Fin 1) p k)) = _
  have hi : ((cfg0.win 3).blk t).view.emb (ix3 (0 : Fin 1) p k) = ix3 (batchOf t) (rowAt (tileOf t) p) k := by
    funext a; apply Fin.ext
    match a with
    | ⟨0, _⟩ => show win0_3.index t (0 : Fin 3) * 1 + 1 * 0 = win0_5.index t (0 : Fin 3); omega
    | ⟨1, _⟩ => show win0_3.index t (1 : Fin 3) * 256 + 1 * p.val = 256 * win0_5.index t (1 : Fin 3) + p.val; omega
    | ⟨2, _⟩ => show win0_3.index t (2 : Fin 3) * 2048 + 1 * k.val = k.val; omega
  rw [hi, V_main_arg2]

/-! ## What each point writes back, and the arrays after the run -/

/-- Point t writes back block t of the attention array. -/
theorem flushed5_eq (c : Dev nD) (t : Fin cfg0.N) :
    (dats m 0 c).flushed 5 t
      = ((cfg0.win 5).blk t).view.read (Elt Ideal) (attn (qArr m c) (vArr m c) (wArr m c)) := by
  obtain ⟨f0, f1, f2, f3, f4, f5, f6, f7, f8, f9, f10, f11, f12, f13, f14, f15, f16, f17⟩ := idx_facts t
  rw [Cert.KernelIdeal.Value.flushed5]
  unfold out0_5
  rw [View.canon_unit_zero hz3]
  simp only [View.ld_unit_zero (S := S1x256x1) hz3, View.ld_unit_zero (S := S1x1x2048) hz3, View.ld_unit_zero (S := S1x256x2048) hz3]
  funext y
  show k0_pay3 (F := Ideal) (iblk m c 0 t) (iblk m c 1 t) (iblk m c 3 t) y
      = attn (qArr m c) (vArr m c) (wArr m c) (((cfg0.win 5).blk t).view.emb y)
  refine (attnBlock_eq (qArr m c) (vArr m c) (wArr m c) (iblk m c 0 t) (iblk m c 1 t) (iblk m c 3 t) (batchOf t) (tileOf t)
    (blk0_at m c t) (blk1_at m c t) (blk3_at m c t) y).trans ?_
  refine congrArg (attn (qArr m c) (vArr m c) (wArr m c)) ?_
  funext a; apply Fin.ext
  have hy0 : (y 0).val < 1 := (y 0).isLt
  match a with
  | ⟨0, _⟩ => show win0_5.index t (0 : Fin 3) = win0_5.index t (0 : Fin 3) * 1 + 1 * (y 0).val; omega
  | ⟨1, _⟩ => show 256 * win0_5.index t (1 : Fin 3) + (y 1).val = win0_5.index t (1 : Fin 3) * 256 + 1 * (y 1).val; omega
  | ⟨2, _⟩ => show (y 2).val = win0_5.index t (2 : Fin 3) * 2048 + 1 * (y 2).val; omega

/-- Point t writes back block t of the context array. -/
theorem flushed4_eq (c : Dev nD) (t : Fin cfg0.N) :
    (dats m 0 c).flushed 4 t
      = ((cfg0.win 4).blk t).view.read (Elt Ideal) (ctx (qArr m c) (vArr m c) (wArr m c)) := by
  obtain ⟨f0, f1, f2, f3, f4, f5, f6, f7, f8, f9, f10, f11, f12, f13, f14, f15, f16, f17⟩ := idx_facts t
  rw [Cert.KernelIdeal.Value.flushed4]
  unfold out0_4
  rw [View.canon_unit_zero hz3]
  simp only [View.ld_unit_zero (S := S1x256x1) hz3, View.ld_unit_zero (S := S1x1x2048) hz3, View.ld_unit_zero (S := S1x256x2048) hz3,
    View.ld_unit_zero (S := S1x2048x1024) hz3]
  funext y
  show k0_pay1 (F := Ideal) (k0_pay4 (iblk m c 0 t) (iblk m c 1 t) (iblk m c 3 t) (iblk m c 2 t)) y
      = ctx (qArr m c) (vArr m c) (wArr m c) (((cfg0.win 4).blk t).view.emb y)
  refine (ctxBlock_eq (qArr m c) (vArr m c) (wArr m c) (iblk m c 0 t) (iblk m c 1 t) (iblk m c 2 t) (iblk m c 3 t) (batchOf t) (tileOf t)
    (blk0_at m c t) (blk1_at m c t) (blk2_at m c t) (blk3_at m c t) y).trans ?_
  refine congrArg (ctx (qArr m c) (vArr m c) (wArr m c)) ?_
  funext a; apply Fin.ext
  have hy0 : (y 0).val < 1 := (y 0).isLt
  match a with
  | ⟨0, _⟩ => show win0_5.index t (0 : Fin 3) = win0_4.index t (0 : Fin 3) * 1 + 1 * (y 0).val; omega
  | ⟨1, _⟩ => show 256 * win0_5.index t (1 : Fin 3) + (y 1).val = win0_4.index t (1 : Fin 3) * 256 + 1 * (y 1).val; omega
  | ⟨2, _⟩ => show (y 2).val = win0_4.index t (2 : Fin 3) * 1024 + 1 * (y 2).val; omega

/-- An index of the attention array is in point t's block iff each coordinate is in the block's range. -/
theorem mem_blk5 (t : Fin cfg0.N) (i : S4x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v5_1).slice (win0_5.rect t)).set ↔ _
  rw [View.set_slice_whole, Rect.mem_set_unit]
  exact Iff.rfl

theorem mem_blk4 (t : Fin cfg0.N) (i : S4x2048x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v5_0).slice (win0_4.rect t)).set ↔ _
  rw [View.set_slice_whole, Rect.mem_set_unit]
  exact Iff.rfl

/-- Every index of the attention array is in some point's block: batch i₀, row tile i₁ / 256. -/
theorem cover5 (i : S4x2048x2048.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  obtain ⟨t, q0, q1⟩ := idx_onto ⟨(i 0).val, hi0⟩ ⟨(i 1).val / 256, by omega⟩
  obtain ⟨f0, f1, f2, f3, f4, f5, f6, f7, f8, f9, f10, f11, f12, f13, f14, f15, f16, f17⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1
              simp only at q0; omega
  | ⟨1, _⟩ => show win0_5.index t (1 : Fin 3) * 256 ≤ (i 1).val ∧ (i 1).val < win0_5.index t (1 : Fin 3) * 256 + 256
              simp only at q1; omega
  | ⟨2, _⟩ => show win0_5.index t (2 : Fin 3) * 2048 ≤ (i 2).val ∧ (i 2).val < win0_5.index t (2 : Fin 3) * 2048 + 2048
              omega

/-- … and every index of the context array likewise. -/
theorem cover4 (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, q0, q1⟩ := idx_onto ⟨(i 0).val, hi0⟩ ⟨(i 1).val / 256, by omega⟩
  obtain ⟨f0, f1, f2, f3, f4, f5, f6, f7, f8, f9, f10, f11, f12, f13, f14, f15, f16, f17⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1
              simp only at q0; omega
  | ⟨1, _⟩ => show win0_4.index t (1 : Fin 3) * 256 ≤ (i 1).val ∧ (i 1).val < win0_4.index t (1 : Fin 3) * 256 + 256
              simp only at q1; omega
  | ⟨2, _⟩ => show win0_4.index t (2 : Fin 3) * 1024 ≤ (i 2).val ∧ (i 2).val < win0_4.index t (2 : Fin 3) * 1024 + 1024
              omega

/-- After the run the attention array is the specification's. -/
theorem final5 (c : Dev nD) : (dats m 0 c).arrAt 5 cfg0.N = attn (qArr m c) (vArr m c) (wArr m c) :=
  (dats m 0 c).arrAt_eq_of_cover 5 (attn (qArr m c) (vArr m c) (wArr m c)) (fun t _ => flushed5_eq m c t) cover5

/-- After the run the context array is the specification's. -/
theorem final4 (c : Dev nD) : (dats m 0 c).arrAt 4 cfg0.N = ctx (qArr m c) (vArr m c) (wArr m c) :=
  (dats m 0 c).arrAt_eq_of_cover 4 (ctx (qArr m c) (vArr m c) (wArr m c)) (fun t _ => flushed4_eq m c t) cover4

/-- The first program's run: it ends with the context and the attention weights at the specification's arrays of its
    arguments, the arguments unchanged. -/
theorem kernel_run : θ_run defs (onTc (τ := τ) (main (F := Ideal))) ⟨m, fun _ => 0, ρ⟩ fun r => ∀ c : Dev nD,
      r.2.mem ((c : Thread nD τ).loc main_v5_0) = ctx (qArr m c) (vArr m c) (wArr m c)
      ∧ r.2.mem ((c : Thread nD τ).loc main_v5_1) = attn (qArr m c) (vArr m c) (wArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩)
    (Cert.KernelIdeal.Value.run_blocks m ρ)

end Cert.MaskedAttn

end
-- ==== Proof.lean ====
/- Masked additive attention, a tiled kernel against its plain reference, over the extended reals.
   Both programs take a query and a value of shape [4, 2048, 1024] and a mask of 32-bit words of shape [4, 2048, 2048], and
   return the context [4, 2048, 1024] and the attention weights [4, 2048, 2048]. The score of query row r against key row k
   is the sum of the two rows' feature sums, scaled by 1/√1024 and lowered by 10⁹ where the mask word is zero; the weights
   are each row's softmax; the context is the weights' product with the values.
   The kernel scales by the word of 2⁻⁵, selects on "mask word ≠ 0", and runs on a 4 × 8 grid of 256-row tiles; the
   reference divides by √1024 and adds (1 − float(mask)) · (−10⁹). The two scores agree exactly when the mask word is 0
   or 1 (Proof/Spec.lean), which the precondition assumes of every word (Proof/MaskPre.lean reads it back); with that the
   reference, operation by operation, is the specification (Proof/RefRead.lean), and so is the kernel: one tile's
   arithmetic (Proof/KernelTile.lean) read through the blocks that tile the output arrays (Proof/KernelBlocks.lean).
   The finiteness of the float inputs is assumed but no step uses it. The kernel's idealization rewrote nothing, so
   the fourth conjunct is trivial. -/
import proofs.«418157_j86792699117973_2_alg».proof.Defs
import proofs.«418157_j86792699117973_2_alg».proof.Proof.Gen.Kernel
import proofs.«418157_j86792699117973_2_alg».proof.Proof.Gen.Kernel.Skeleton
import proofs.«418157_j86792699117973_2_alg».proof.Proof.Gen.Kernel.Launch
import proofs.«418157_j86792699117973_2_alg».proof.Proof.Gen.Kernel.Points
import proofs.«418157_j86792699117973_2_alg».proof.Proof.Gen.Kernel.Frame
import proofs.«418157_j86792699117973_2_alg».proof.Proof.Gen.KernelIdeal
import proofs.«418157_j86792699117973_2_alg».proof.Proof.Gen.KernelIdeal.Skeleton
import proofs.«418157_j86792699117973_2_alg».proof.Proof.Gen.KernelIdeal.Launch
import proofs.«418157_j86792699117973_2_alg».proof.Proof.Gen.KernelIdeal.Points
import proofs.«418157_j86792699117973_2_alg».proof.Proof.Gen.KernelIdeal.Frame
import proofs.«418157_j86792699117973_2_alg».proof.Proof.Gen.ReferenceIdeal
import proofs.«418157_j86792699117973_2_alg».proof.Proof.Gen.Pre_finite_inputs
import proofs.«418157_j86792699117973_2_alg».proof.Proof.Gen.KernelIdeal.Value
import proofs.«418157_j86792699117973_2_alg».proof.Proof.Gen.ReferenceIdeal.Run
import proofs.«418157_j86792699117973_2_alg».proof.Proof.Gen.ReferenceIdeal.Read
import proofs.«418157_j86792699117973_2_alg».proof.Proof.MaskPre
import proofs.«418157_j86792699117973_2_alg».proof.Proof.RefRead
import proofs.«418157_j86792699117973_2_alg».proof.Proof.KernelBlocks
import Idealize.ShloMosaic.Adequacy
import Idealize.ShloMosaic.Init

noncomputable section

namespace Cert.Proof

open Idealize.ShloMosaic Idealize.ShloMosaic.TcCoe Idealize.SL.Sem Cert.MaskedAttn

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, with every mask word 0 or 1, both programs end with the context and the
    attention weights at the specification's arrays of the arguments. -/
theorem algebraic : Cert.algebraic_KernelIdeal_ReferenceIdeal := by
  intro m ρ m' ρ' hpre hagree
  have hw : ∀ (c : Dev Cert.KernelIdeal.nD) i, wArr m c i = 0#32 ∨ wArr m c i = 1#32 :=
    fun c i => mask_of_pre _ _ _ (hpre c) i
  refine ⟨fun c => ctx (qArr m c) (vArr m c) (wArr m c), fun c => attn (qArr m c) (vArr m c) (wArr m c),
    kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v27_eq, (hagree c).1, (hagree c).2.1, (hagree c).2.2]
    exact ref_ctx _ _ _ (hw c)
  · rw [(h c).2.1, Cert.ReferenceIdeal.Read.val_main_v26_eq, (hagree c).1, (hagree c).2.1, (hagree c).2.2]
    exact ref_attn _ _ _ (hw c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
